-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S2048x1024 : Shape := ⟨2, ![2048, 1024]⟩
abbrev S4096x512 : Shape := ⟨2, ![4096, 512]⟩
abbrev S512 : Shape := ⟨1, ![512]⟩
abbrev S1024x512 : Shape := ⟨2, ![1024, 512]⟩
abbrev S4096 : Shape := ⟨1, ![4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S4096x512 : S_.BroadcastsInDim S4096x512 (![] : Fin 0 → Fin S4096x512.rank)
  reducesTo_S4096x512_S_d0_1 : S4096x512.ReducesTo [0, 1] S_
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096x512 .f32) (main_arg5 : FVec F S1024x512 .f32) (main_arg6 : FVec F S4096 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S4096x512 .f32 := Host.absf main_arg4
  let main_cst_6 : FVec F S_ .f32 := constant S_ .f32 0x7F800000#32
  let main_v20 : FVec F S4096x512 .f32 := broadcastInDim S4096x512 ![] bcast_S_S4096x512 main_cst_6
  let main_v21 : IVec S4096x512 1 := cmpf .olt main_v19 main_v20
  let main_c_7 : IVec S_ 1 := constantI S_ 1 1#1
  let main_v22 : IVec S_ 1 := (fun x v => Host.reduce IntOp.andi x v reducesTo_S4096x512_S_d0_1 h_S_) main_v21 main_c_7
  let main_v23 : IVec S_ 1 := andi main_v18 main_v22
  let main_v24 : FVec F S1024x512 .f32 := Host.absf main_arg5
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S2048x4096 .f32) (main_arg1 : FVec F S2048x1024 .f32) (main_arg2 : FVec F S4096x512 .f32) (main_arg3 : FVec F S512 .f32) (main_arg4 : FVec F S4096x512 .f32) (main_arg5 : FVec F S1024x512 .f32) (main_arg6 : FVec F S4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_v13 main_v16
-- ==== Kernel.lean ====
abbrev S2048x4096 : Shape := ⟨2, ![2048, 4096]⟩
abbrev S2048x1024 : Shape := ⟨2, ![2048, 1024]⟩
abbrev S4096x512 : Shape := ⟨2, ![4096, 512]⟩
abbrev S512 : Shape := ⟨1, ![512]⟩
abbrev S1024x512 : Shape := ⟨2, ![1024, 512]⟩
abbrev S4096 : Shape := ⟨1, ![4096]⟩
abbrev S1x512 : Shape := ⟨2, ![1, 512]⟩
abbrev S1x4096 : Shape := ⟨2, ![1, 4096]⟩
abbrev S256x4096 : Shape := ⟨2, ![256, 4096]⟩
abbrev S256x1024 : Shape := ⟨2, ![256, 1024]⟩
abbrev S256x512 : Shape := ⟨2, ![256, 512]⟩

abbrev nBuf : Space → Nat
  | .hbm => 13
  | .vmem => 11
  | .smem => 0
  | _ => 0

abbrev bufTy : (tb : Table) → Fin (tcTables nBuf tb) → BufTy
  | .hbm, ⟨0, _⟩ => ⟨S2048x4096, .f32⟩
  | .hbm, ⟨1, _⟩ => ⟨S2048x1024, .f32⟩
  | .hbm, ⟨2, _⟩ => ⟨S4096x512, .f32⟩
  | .hbm, ⟨3, _⟩ => ⟨S512, .f32⟩
  | .hbm, ⟨4, _⟩ => ⟨S4096x512, .f32⟩
  | .hbm, ⟨5, _⟩ => ⟨S1024x512, .f32⟩
  | .hbm, ⟨6, _⟩ => ⟨S4096, .f32⟩
  | .hbm, ⟨7, _⟩ => ⟨S4096x512, .bf16⟩
  | .hbm, ⟨8, _⟩ => ⟨S1024x512, .bf16⟩
  | .hbm, ⟨9, _⟩ => ⟨S4096x512, .bf16⟩
  | .hbm, ⟨10, _⟩ => ⟨S1x512, .f32⟩
  | .hbm, ⟨11, _⟩ => ⟨S1x4096, .f32⟩
  | .hbm, ⟨12, _⟩ => ⟨S2048x4096, .f32⟩
  | .local _ .vmem, ⟨0, _⟩ => ⟨S256x4096, .f32⟩
  | .local _ .vmem, ⟨1, _⟩ => ⟨S256x4096, .f32⟩
  | .local _ .vmem, ⟨2, _⟩ => ⟨S256x1024, .f32⟩
  | .local _ .vmem, ⟨3, _⟩ => ⟨S256x1024, .f32⟩
  | .local _ .vmem, ⟨4, _⟩ => ⟨S4096x512, .bf16⟩
  | .local _ .vmem, ⟨5, _⟩ => ⟨S1024x512, .bf16⟩
  | .local _ .vmem, ⟨6, _⟩ => ⟨S4096x512, .bf16⟩
  | .local _ .vmem, ⟨7, _⟩ => ⟨S1x512, .f32⟩
  | .local _ .vmem, ⟨8, _⟩ => ⟨S1x4096, .f32⟩
  | .local _ .vmem, ⟨9, _⟩ => ⟨S256x4096, .f32⟩
  | .local _ .vmem, ⟨10, _⟩ => ⟨S256x4096, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  shapeCasts_S512_S1x512 : S512.ShapeCasts S1x512
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  inb_S256x1024_S256x1024_0_0 : ∀ a, (![0, 0] : Fin 2 → Nat) a + S256x1024.size a ≤ S256x1024.size a
  h_S256x1024 : 0 < S256x1024.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  broadcasts_S1x512_S256x512 : S1x512.Broadcasts S256x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  dot_S256x1024_S1024x512_S256x512_1_0_0_1_n_n_wf : DotDims.WF S256x1024 S1024x512 S256x512 [1] [0] [0] [1] [] []
  dot_S256x4096_S4096x512_S256x512_1_0_0_1_n_n_wf : DotDims.WF S256x4096 S4096x512 S256x512 [1] [0] [0] [1] [] []
  dot_S256x512_S4096x512_S256x4096_1_1_0_0_n_n_wf : DotDims.WF S256x512 S4096x512 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S2048x4096.size a
  hwx0_0 : ∀ i : grid0.Coords, EltTy.bits .f32 = 32 ∨ (Rect.block (s := S2048x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S2048x1024.size a
  hwx0_1 : ∀ i : grid0.Coords, EltTy.bits .f32 = 32 ∨ (Rect.block (s := S2048x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S4096x512.size a
  hwx0_2 : ∀ i : grid0.Coords, EltTy.bits .bf16 = 32 ∨ (Rect.block (s := S4096x512) S4096x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .bf16 = 32 ∨ (Rect.block (s := S1024x512) S1024x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x512.size a ≤ S4096x512.size a
  hwx0_4 : ∀ i : grid0.Coords, EltTy.bits .bf16 = 32 ∨ (Rect.block (s := S4096x512) S4096x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x4096.size a ≤ S2048x4096.size a
  hwx0_7 : ∀ i : grid0.Coords, EltTy.bits .f32 = 32 ∨ (Rect.block (s := S2048x4096) S256x4096.size (cc0_transform_7 i) (hinb0_7 i)).WholeWords (EltTy.packing .f32)

variable [Facts₀]

def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf
def dot_S256x512_S4096x512_S256x4096_1_1_0_0_n_n : DotDims S256x512 S4096x512 S256x4096 where
  lhsContracting := [1]
  rhsContracting := [1]
  lhsNonContracting := [0]
  rhsNonContracting := [0]
  lhsBatch := []
  rhsBatch := []
  wf := dot_S256x512_S4096x512_S256x4096_1_1_0_0_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S4096x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S256x4096.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2048x4096 : Shape := ⟨2, ![2048, 4096]⟩
abbrev S2048x1024 : Shape := ⟨2, ![2048, 1024]⟩
abbrev S4096x512 : Shape := ⟨2, ![4096, 512]⟩
abbrev S512 : Shape := ⟨1, ![512]⟩
abbrev S1024x512 : Shape := ⟨2, ![1024, 512]⟩
abbrev S4096 : Shape := ⟨1, ![4096]⟩
abbrev S1x512 : Shape := ⟨2, ![1, 512]⟩
abbrev S2048x512 : Shape := ⟨2, ![2048, 512]⟩
abbrev S512x4096 : Shape := ⟨2, ![512, 4096]⟩
abbrev S1x4096 : Shape := ⟨2, ![1, 4096]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x1024, .f32⟩
  | .hbm, ⟨2, _⟩ => ⟨S4096x512, .f32⟩
  | .hbm, ⟨3, _⟩ => ⟨S512, .f32⟩
  | .hbm, ⟨4, _⟩ => ⟨S4096x512, .f32⟩
  | .hbm, ⟨5, _⟩ => ⟨S1024x512, .f32⟩
  | .hbm, ⟨6, _⟩ => ⟨S4096, .f32⟩
  | .hbm, ⟨7, _⟩ => ⟨S1x512, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S2048x512, .f32⟩
  | .hbm, ⟨12, _⟩ => ⟨S2048x512, .f32⟩
  | .hbm, ⟨13, _⟩ => ⟨S512x4096, .f32⟩
  | .hbm, ⟨14, _⟩ => ⟨S2048x4096, .f32⟩
  | .hbm, ⟨15, _⟩ => ⟨S1x4096, .f32⟩
  | .hbm, ⟨16, _⟩ => ⟨S2048x4096, .f32⟩
  | .hbm, ⟨17, _⟩ => ⟨S2048x4096, .f32⟩
  | .hbm, ⟨18, _⟩ => ⟨S_, .f32⟩
  | .hbm, ⟨19, _⟩ => ⟨S2048x4096, .f32⟩
  | .hbm, ⟨20, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_cst : Ref sig .tc := ⟨.hbm, 18, rfl⟩
abbrev main_call0_v0 : Ref sig .tc := ⟨.hbm, 19, rfl⟩
abbrev main_v11 : Ref sig .tc := ⟨.hbm, 20, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S2048x512_0_1 : S1x512.BroadcastsInDim S2048x512 (![0, 1] : Fin 2 → Fin S2048x512.rank)
  transposes_S4096x512_S512x4096_1_0 : S4096x512.Transposes [1, 0] S512x4096
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  bcast_S_S2048x4096 : S_.BroadcastsInDim S2048x4096 (![] : Fin 0 → Fin S2048x4096.rank)
  dot_S2048x1024_S1024x512_S2048x512_1_0_0_1_n_n_wf : DotDims.WF S2048x1024 S1024x512 S2048x512 [1] [0] [0] [1] [] []
  dot_S2048x4096_S4096x512_S2048x512_1_0_0_1_n_n_wf : DotDims.WF S2048x4096 S4096x512 S2048x512 [1] [0] [0] [1] [] []
  dot_S2048x512_S512x4096_S2048x4096_1_0_0_1_n_n_wf : DotDims.WF S2048x512 S512x4096 S2048x4096 [1] [0] [0] [1] [] []

variable [Facts₀]

def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf
def dot_S2048x4096_S4096x512_S2048x512_1_0_0_1_n_n : DotDims S2048x4096 S4096x512 S2048x512 where
  lhsContracting := [1]
  rhsContracting := [0]
  lhsNonContracting := [0]
  rhsNonContracting := [1]
  lhsBatch := []
  rhsBatch := []
  wf := dot_S2048x4096_S4096x512_S2048x512_1_0_0_1_n_n_wf
def dot_S2048x512_S512x4096_S2048x4096_1_0_0_1_n_n : DotDims S2048x512 S512x4096 S2048x4096 where
  lhsContracting := [1]
  rhsContracting := [0]
  lhsNonContracting := [0]
  rhsNonContracting := [1]
  lhsBatch := []
  rhsBatch := []
  wf := dot_S2048x512_S512x4096_S2048x4096_1_0_0_1_n_n_wf

class Facts : Prop extends Facts₀ where

variable [Facts]
-- ==== Proof.Products.lean ====
/-
  The kernel's three matrix products read at one entry, on the extended reals.

  Each `tpu.matmul` accumulates into a zero block, so at an output entry it is the plain sum, over the one
  contracted coordinate, of the products of the two operands' entries. For the first two products the operands are
  laid out rows × contraction and contraction × columns; the third contracts the SECOND axis of both operands (the
  right factor is kept as [units, rank] and used transposed), so its right operand is read at (column, k).
  The proofs re-index the sum over the contraction shape's one axis by its coordinate.
-/
import proofs.«402533_j14534169330228_3_alg».proof.Proof.Gen.KernelIdeal
import Idealize.ShloMosaic.Lib.ValueIdx
import Idealize.ShloMosaic.PureOps.Ideal.Laws

noncomputable section

namespace Cert.KernelIdeal.Products

open Cert.KernelIdeal Cert.KernelIdeal.Gen Idealize.ShloMosaic Idealize.ShloMosaic.TcCoe Idealize.ShloMosaic.ValueIdx

/-! ## context block × W : [256, 1024] × [1024, 512] -/

theorem ctxW_lhs_0 (i : S256x512.Idx) (q : dot_S256x1024_S1024x512_S256x512_1_0_0_1_n_n.contr.Idx) :
    (dot_S256x1024_S1024x512_S256x512_1_0_0_1_n_n.lhsIdx i q 0).val = (i 0).val := by
  unfold DotDims.lhsIdx
  rw [dif_neg (show ¬(0 : Fin S256x1024.rank) ∈ dot_S256x1024_S1024x512_S256x512_1_0_0_1_n_n.lhsBatch by decide), dif_pos (show (0 : Fin S256x1024.rank) ∈ dot_S256x1024_S1024x512_S256x512_1_0_0_1_n_n.lhsNonContracting by decide)]
  rfl
theorem ctxW_lhs_1 (i : S256x512.Idx) (q : dot_S256x1024_S1024x512_S256x512_1_0_0_1_n_n.contr.Idx) :
    (dot_S256x1024_S1024x512_S256x512_1_0_0_1_n_n.lhsIdx i q 1).val = (q ⟨0, by decide⟩).val :=
  dot_S256x1024_S1024x512_S256x512_1_0_0_1_n_n.lhsIdx_val_of_single rfl i q
theorem ctxW_rhs_0 (i : S256x512.Idx) (q : dot_S256x1024_S1024x512_S256x512_1_0_0_1_n_n.contr.Idx) :
    (dot_S256x1024_S1024x512_S256x512_1_0_0_1_n_n.rhsIdx i q 0).val = (q ⟨0, by decide⟩).val :=
  dot_S256x1024_S1024x512_S256x512_1_0_0_1_n_n.rhsIdx_val_of_single rfl i q
theorem ctxW_rhs_1 (i : S256x512.Idx) (q : dot_S256x1024_S1024x512_S256x512_1_0_0_1_n_n.contr.Idx) :
    (dot_S256x1024_S1024x512_S256x512_1_0_0_1_n_n.rhsIdx i q 1).val = (i 1).val := by
  unfold DotDims.rhsIdx
  rw [dif_neg (show ¬(1 : Fin S1024x512.rank) ∈ dot_S256x1024_S1024x512_S256x512_1_0_0_1_n_n.rhsBatch by decide), dif_pos (show (1 : Fin S1024x512.rank) ∈ dot_S256x1024_S1024x512_S256x512_1_0_0_1_n_n.rhsNonContracting by decide)]
  rfl

/-- Entry (p, q) of the context block times `W`: the sum over the 1024 context features. -/
theorem ctxW_apply (l : FVec Ideal S256x1024 .bf16) (r : FVec Ideal S1024x512 .bf16) (p : Fin 256) (q : Fin 512) :
    matmul dot_S256x1024_S1024x512_S256x512_1_0_0_1_n_n none l r (constant S256x512 .f32 0x00000000#32) (ix2 p q)
      = ∑ k : Fin 1024, l (ix2 p k) * r (ix2 k q) := by
  simp only [matmul]
  rw [Ideal.matmul_constant_zero_apply, ← Equiv.sum_comp (ValueIdx.contrEquiv1 dot_S256x1024_S1024x512_S256x512_1_0_0_1_n_n 1024 rfl rfl).symm]
  refine Finset.sum_congr rfl fun k _ => ?_
  have hk := ValueIdx.contrEquiv1_symm_val dot_S256x1024_S1024x512_S256x512_1_0_0_1_n_n 1024 rfl rfl k
  have el : dot_S256x1024_S1024x512_S256x512_1_0_0_1_n_n.lhsIdx (ix2 p q) ((ValueIdx.contrEquiv1 dot_S256x1024_S1024x512_S256x512_1_0_0_1_n_n 1024 rfl rfl).symm k) = ix2 p k := funext fun a => Fin.ext (by
    match a with
    | ⟨0, _⟩ => exact ctxW_lhs_0 _ _
    | ⟨1, _⟩ => exact (ctxW_lhs_1 _ _).trans hk)
  have er : dot_S256x1024_S1024x512_S256x512_1_0_0_1_n_n.rhsIdx (ix2 p q) ((ValueIdx.contrEquiv1 dot_S256x1024_S1024x512_S256x512_1_0_0_1_n_n 1024 rfl rfl).symm k) = ix2 k q := funext fun a => Fin.ext (by
    match a with
    | ⟨0, _⟩ => exact (ctxW_rhs_0 _ _).trans hk
    | ⟨1, _⟩ => exact ctxW_rhs_1 _ _)
  rw [el, er]

/-! ## inputs block × U : [256, 4096] × [4096, 512] -/

theorem xU_lhs_0 (i : S256x512.Idx) (q : dot_S256x4096_S4096x512_S256x512_1_0_0_1_n_n.contr.Idx) :
    (dot_S256x4096_S4096x512_S256x512_1_0_0_1_n_n.lhsIdx i q 0).val = (i 0).val := by
  unfold DotDims.lhsIdx
  rw [dif_neg (show ¬(0 : Fin S256x4096.rank) ∈ dot_S256x4096_S4096x512_S256x512_1_0_0_1_n_n.lhsBatch by decide), dif_pos (show (0 : Fin S256x4096.rank) ∈ dot_S256x4096_S4096x512_S256x512_1_0_0_1_n_n.lhsNonContracting by decide)]
  rfl
theorem xU_lhs_1 (i : S256x512.Idx) (q : dot_S256x4096_S4096x512_S256x512_1_0_0_1_n_n.contr.Idx) :
    (dot_S256x4096_S4096x512_S256x512_1_0_0_1_n_n.lhsIdx i q 1).val = (q ⟨0, by decide⟩).val :=
  dot_S256x4096_S4096x512_S256x512_1_0_0_1_n_n.lhsIdx_val_of_single rfl i q
theorem xU_rhs_0 (i : S256x512.Idx) (q : dot_S256x4096_S4096x512_S256x512_1_0_0_1_n_n.contr.Idx) :
    (dot_S256x4096_S4096x512_S256x512_1_0_0_1_n_n.rhsIdx i q 0).val = (q ⟨0, by decide⟩).val :=
  dot_S256x4096_S4096x512_S256x512_1_0_0_1_n_n.rhsIdx_val_of_single rfl i q
theorem xU_rhs_1 (i : S256x512.Idx) (q : dot_S256x4096_S4096x512_S256x512_1_0_0_1_n_n.contr.Idx) :
    (dot_S256x4096_S4096x512_S256x512_1_0_0_1_n_n.rhsIdx i q 1).val = (i 1).val := by
  unfold DotDims.rhsIdx
  rw [dif_neg (show ¬(1 : Fin S4096x512.rank) ∈ dot_S256x4096_S4096x512_S256x512_1_0_0_1_n_n.rhsBatch by decide), dif_pos (show (1 : Fin S4096x512.rank) ∈ dot_S256x4096_S4096x512_S256x512_1_0_0_1_n_n.rhsNonContracting by decide)]
  rfl

/-- Entry (p, q) of the inputs block times `U`: the sum over the 4096 input features. -/
theorem xU_apply (l : FVec Ideal S256x4096 .bf16) (r : FVec Ideal S4096x512 .bf16) (p : Fin 256) (q : Fin 512) :
    matmul dot_S256x4096_S4096x512_S256x512_1_0_0_1_n_n none l r (constant S256x512 .f32 0x00000000#32) (ix2 p q)
      = ∑ k : Fin 4096, l (ix2 p k) * r (ix2 k q) := by
  simp only [matmul]
  rw [Ideal.matmul_constant_zero_apply, ← Equiv.sum_comp (ValueIdx.contrEquiv1 dot_S256x4096_S4096x512_S256x512_1_0_0_1_n_n 4096 rfl rfl).symm]
  refine Finset.sum_congr rfl fun k _ => ?_
  have hk := ValueIdx.contrEquiv1_symm_val dot_S256x4096_S4096x512_S256x512_1_0_0_1_n_n 4096 rfl rfl k
  have el : dot_S256x4096_S4096x512_S256x512_1_0_0_1_n_n.lhsIdx (ix2 p q) ((ValueIdx.contrEquiv1 dot_S256x4096_S4096x512_S256x512_1_0_0_1_n_n 4096 rfl rfl).symm k) = ix2 p k := funext fun a => Fin.ext (by
    match a with
    | ⟨0, _⟩ => exact xU_lhs_0 _ _
    | ⟨1, _⟩ => exact (xU_lhs_1 _ _).trans hk)
  have er : dot_S256x4096_S4096x512_S256x512_1_0_0_1_n_n.rhsIdx (ix2 p q) ((ValueIdx.contrEquiv1 dot_S256x4096_S4096x512_S256x512_1_0_0_1_n_n 4096 rfl rfl).symm k) = ix2 k q := funext fun a => Fin.ext (by
    match a with
    | ⟨0, _⟩ => exact (xU_rhs_0 _ _).trans hk
    | ⟨1, _⟩ => exact xU_rhs_1 _ _)
  rw [el, er]

/-! ## gated projection × Vᵀ : [256, 512] × [4096, 512], both contracted on their second axis -/

theorem pV_lhs_0 (i : S256x4096.Idx) (q : dot_S256x512_S4096x512_S256x4096_1_1_0_0_n_n.contr.Idx) :
    (dot_S256x512_S4096x512_S256x4096_1_1_0_0_n_n.lhsIdx i q 0).val = (i 0).val := by
  unfold DotDims.lhsIdx
  rw [dif_neg (show ¬(0 : Fin S256x512.rank) ∈ dot_S256x512_S4096x512_S256x4096_1_1_0_0_n_n.lhsBatch by decide), dif_pos (show (0 : Fin S256x512.rank) ∈ dot_S256x512_S4096x512_S256x4096_1_1_0_0_n_n.lhsNonContracting by decide)]
  rfl
theorem pV_lhs_1 (i : S256x4096.Idx) (q : dot_S256x512_S4096x512_S256x4096_1_1_0_0_n_n.contr.Idx) :
    (dot_S256x512_S4096x512_S256x4096_1_1_0_0_n_n.lhsIdx i q 1).val = (q ⟨0, by decide⟩).val :=
  dot_S256x512_S4096x512_S256x4096_1_1_0_0_n_n.lhsIdx_val_of_single rfl i q
theorem pV_rhs_0 (i : S256x4096.Idx) (q : dot_S256x512_S4096x512_S256x4096_1_1_0_0_n_n.contr.Idx) :
    (dot_S256x512_S4096x512_S256x4096_1_1_0_0_n_n.rhsIdx i q 0).val = (i 1).val := by
  unfold DotDims.rhsIdx
  rw [dif_neg (show ¬(0 : Fin S4096x512.rank) ∈ dot_S256x512_S4096x512_S256x4096_1_1_0_0_n_n.rhsBatch by decide), dif_pos (show (0 : Fin S4096x512.rank) ∈ dot_S256x512_S4096x512_S256x4096_1_1_0_0_n_n.rhsNonContracting by decide)]
  rfl
theorem pV_rhs_1 (i : S256x4096.Idx) (q : dot_S256x512_S4096x512_S256x4096_1_1_0_0_n_n.contr.Idx) :
    (dot_S256x512_S4096x512_S256x4096_1_1_0_0_n_n.rhsIdx i q 1).val = (q ⟨0, by decide⟩).val :=
  dot_S256x512_S4096x512_S256x4096_1_1_0_0_n_n.rhsIdx_val_of_single rfl i q

/-- Entry (p, u) of the gated projection times `Vᵀ`: the sum over the 512 ranks, the right factor read at (u, k). -/
theorem pV_apply (l : FVec Ideal S256x512 .bf16) (r : FVec Ideal S4096x512 .bf16) (p : Fin 256) (u : Fin 4096) :
    matmul dot_S256x512_S4096x512_S256x4096_1_1_0_0_n_n none l r (constant S256x4096 .f32 0x00000000#32) (ix2 p u)
      = ∑ k : Fin 512, l (ix2 p k) * r (ix2 u k) := by
  simp only [matmul]
  rw [Ideal.matmul_constant_zero_apply, ← Equiv.sum_comp (ValueIdx.contrEquiv1 dot_S256x512_S4096x512_S256x4096_1_1_0_0_n_n 512 rfl rfl).symm]
  refine Finset.sum_congr rfl fun k _ => ?_
  have hk := ValueIdx.contrEquiv1_symm_val dot_S256x512_S4096x512_S256x4096_1_1_0_0_n_n 512 rfl rfl k
  have el : dot_S256x512_S4096x512_S256x4096_1_1_0_0_n_n.lhsIdx (ix2 p u) ((ValueIdx.contrEquiv1 dot_S256x512_S4096x512_S256x4096_1_1_0_0_n_n 512 rfl rfl).symm k) = ix2 p k := funext fun a => Fin.ext (by
    match a with
    | ⟨0, _⟩ => exact pV_lhs_0 _ _
    | ⟨1, _⟩ => exact (pV_lhs_1 _ _).trans hk)
  have er : dot_S256x512_S4096x512_S256x4096_1_1_0_0_n_n.rhsIdx (ix2 p u) ((ValueIdx.contrEquiv1 dot_S256x512_S4096x512_S256x4096_1_1_0_0_n_n 512 rfl rfl).symm k) = ix2 u k := funext fun a => Fin.ext (by
    match a with
    | ⟨0, _⟩ => exact pV_rhs_0 _ _
    | ⟨1, _⟩ => exact (pV_rhs_1 _ _).trans hk)
  rw [el, er]

end Cert.KernelIdeal.Products

end
-- ==== Proof.Layer.lean ====
/-
  The layer both programs compute, one batch row at a time, on the extended reals.

  For one row `x : Fin 4096 → EReal` of the inputs and the matching row `ctx : Fin 1024 → EReal` of the context:
    gate r   = S r + ∑ c, ctx c * W c r            (the row's singular values, rank 512)
    proj r   = ∑ n, x n * U n r                    (the row projected on the left factor)
    out u    = max ((∑ r, (proj r * gate r) * V u r) + bias u) 0
  Nothing here mixes two rows, so a block of rows of the result is this function of the same block of rows of the
  inputs and the context; and the expression is written in the order both programs evaluate it, so no law of
  arithmetic (and no finiteness of an entry) is needed to compare them.
-/
import Idealize.ShloMosaic.PureOps.Ideal
import Idealize.ShloMosaic.Lib.ValueIdx

noncomputable section

namespace LowRankLayer

open Idealize.ShloMosaic Idealize.ShloMosaic.ValueIdx

/-- The row's singular values: the static ones plus the context row through `W`. -/
def gate (ctx : Fin 1024 → EReal) (W : Fin 1024 → Fin 512 → EReal) (S : Fin 512 → EReal) (r : Fin 512) : EReal :=
  S r + ∑ c : Fin 1024, ctx c * W c r

/-- The row through the left factor `U`. -/
def proj (x : Fin 4096 → EReal) (U : Fin 4096 → Fin 512 → EReal) (r : Fin 512) : EReal :=
  ∑ n : Fin 4096, x n * U n r

/-- One entry of the result row: the gated projection through `Vᵀ`, plus the bias, clamped at zero. -/
def row (x : Fin 4096 → EReal) (ctx : Fin 1024 → EReal) (U : Fin 4096 → Fin 512 → EReal) (S : Fin 512 → EReal)
    (V : Fin 4096 → Fin 512 → EReal) (W : Fin 1024 → Fin 512 → EReal) (bias : Fin 4096 → EReal) (u : Fin 4096) : EReal :=
  max ((∑ r : Fin 512, (proj x U r * gate ctx W S r) * V u r) + bias u) 0

/-- The whole result over a batch of `B` rows, as an array: entry `(b, u)` is `row` of row `b` of the inputs and
    of the context. The weights are read as stored: `U`, `V` as [4096, 512], `W` as [1024, 512], `S` and `bias` as vectors. -/
def layer {B : Nat} (X : (⟨2, ![B, 4096]⟩ : Shape).Idx → EReal) (C : (⟨2, ![B, 1024]⟩ : Shape).Idx → EReal)
    (U : (⟨2, ![4096, 512]⟩ : Shape).Idx → EReal) (S : (⟨1, ![512]⟩ : Shape).Idx → EReal)
    (V : (⟨2, ![4096, 512]⟩ : Shape).Idx → EReal) (W : (⟨2, ![1024, 512]⟩ : Shape).Idx → EReal)
    (bias : (⟨1, ![4096]⟩ : Shape).Idx → EReal) : (⟨2, ![B, 4096]⟩ : Shape).Idx → EReal :=
  fun i => row (fun n => X (ix2 (i 0) n)) (fun c => C (ix2 (i 0) c)) (fun n r => U (ix2 n r)) (fun r => S (ix1 r))
    (fun u r => V (ix2 u r)) (fun c r => W (ix2 c r)) (fun u => bias (ix1 u)) (i 1)

end LowRankLayer

end
-- ==== Proof.Payload.lean ====
/-
  What the kernel body stores, read at one entry of its [256, 4096] output block, on the extended reals:
  entry (p, u) is `LowRankLayer.row` of row `p` of the inputs block and of the context block, with the weights
  as the body loads them (the static singular values and the bias as one-row blocks).
  The conversions to bf16 are the identity on the extended reals, the shape casts keep their shapes, the two
  one-row blocks are broadcast down the rows, and each matrix product into a zero block is a plain sum.
-/
import proofs.«402533_j14534169330228_3_alg».proof.Proof.Gen.KernelIdeal.Skeleton
import proofs.«402533_j14534169330228_3_alg».proof.Proof.Products
import proofs.«402533_j14534169330228_3_alg».proof.Proof.Layer
import Idealize.ShloMosaic.Lib.Pipeline.Value
import Idealize.ShloMosaic.Lib.ValueLayout

noncomputable section

namespace Cert.KernelIdeal.Payload

open Cert.KernelIdeal Cert.KernelIdeal.Gen Cert.KernelIdeal.Products
open Idealize.ShloMosaic Idealize.ShloMosaic.TcCoe Idealize.ShloMosaic.ValueIdx

/-- The clamp's scalar zero is the extended real zero. -/
theorem clamp_zero : Scalar.ofBits (F := Ideal) .f32 0x00000000#32 = (0 : EReal) := Ideal.ofBits_zero_f32

/-- The stored block at (p, u), from the blocks the body loads: inputs `x`, context `ctx`, the one-row blocks `s`
    and `b`, and the three weight arrays `w`, `uu`, `v`. -/
theorem pay_apply (x : Vec Ideal S256x4096 .f32) (ctx : Vec Ideal S256x1024 .f32) (s : Vec Ideal S1x512 .f32)
    (w : Vec Ideal S1024x512 .bf16) (uu : Vec Ideal S4096x512 .bf16) (v : Vec Ideal S4096x512 .bf16)
    (b : Vec Ideal S1x4096 .f32) (p : Fin 256) (u : Fin 4096) :
    k0_pay1 x ctx s w uu v b (ix2 p u)
      = LowRankLayer.row (fun n => x (ix2 p n)) (fun c => ctx (ix2 p c)) (fun n r => uu (ix2 n r))
          (fun r => s (ix2 (0 : Fin 1) r)) (fun j r => v (ix2 j r)) (fun c r => w (ix2 c r))
          (fun j => b (ix2 (0 : Fin 1) j)) u := by
  unfold k0_pay1
  simp only [maximumf_apply, addf_apply, mulf_apply, truncf_apply, broadcast_apply, shapeCast_self,
    broadcastTo_1b_ab_apply, pV_apply, xU_apply, ctxW_apply, clamp_zero,
    LowRankLayer.row, LowRankLayer.proj, LowRankLayer.gate]

end Cert.KernelIdeal.Payload

end
-- ==== Proof.KernelValue.lean ====
/-
  The kernel's result array after the run, on the extended reals, is `LowRankLayer.layer` of the seven arguments.

  The grid has eight points; point `t` stages rows `256 t … 256 t + 255` of the inputs and of the context, the whole of
  each weight array (converted to bf16 by the host before the launch — the identity here — and `S`, `bias` reshaped to
  one row), and writes back rows `256 t … 256 t + 255` of the result. Since the layer never mixes two rows, what
  point `t` writes back is block `t` of the layer of the whole arrays; the eight blocks tile the result.
-/
import proofs.«402533_j14534169330228_3_alg».proof.Proof.Gen.KernelIdeal.Value
import proofs.«402533_j14534169330228_3_alg».proof.Proof.Payload
import Idealize.ShloMosaic.Lib.StableHlo.Run
import Idealize.ShloMosaic.Lib.Pipeline.Value
import Idealize.ShloMosaic.Lib.ValueLayout

noncomputable section

namespace Cert.KernelIdeal.Blocks

open Cert.KernelIdeal Cert.KernelIdeal.Gen Cert.KernelIdeal.Value Cert.KernelIdeal.Payload
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The layer of the arguments as launched: what the result array is claimed to hold. -/
abbrev result (c : Dev nD) : S2048x4096.Idx → EReal :=
  LowRankLayer.layer (B := 2048) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-! ## The arrays the host prepares before the launch -/

theorem V_U (c : Dev nD) : (V m c main_v0 : FVec Ideal S4096x512 .bf16) = truncf (F := Ideal) .bf16 (m ((c : Thread nD τ).loc main_arg2) : FVec Ideal S4096x512 .f32) bitsLt_bf16_f32 := by
  dsimp only [V, hostOps0]; after_results
theorem V_W (c : Dev nD) : (V m c main_v1 : FVec Ideal S1024x512 .bf16) = truncf (F := Ideal) .bf16 (m ((c : Thread nD τ).loc main_arg5) : FVec Ideal S1024x512 .f32) bitsLt_bf16_f32 := by
  dsimp only [V, hostOps0]; after_results
theorem V_V (c : Dev nD) : (V m c main_v2 : FVec Ideal S4096x512 .bf16) = truncf (F := Ideal) .bf16 (m ((c : Thread nD τ).loc main_arg4) : FVec Ideal S4096x512 .f32) bitsLt_bf16_f32 := by
  dsimp only [V, hostOps0]; after_results
theorem V_S (c : Dev nD) : (V m c main_v3 : S1x512.Idx → EReal) = shapeCast S1x512 (m ((c : Thread nD τ).loc main_arg3)) shapeCasts_S512_S1x512 := by
  dsimp only [V, hostOps0]; after_results; rfl
theorem V_bias (c : Dev nD) : (V m c main_v4 : S1x4096.Idx → EReal) = shapeCast S1x4096 (m ((c : Thread nD τ).loc main_arg6)) shapeCasts_S4096_S1x4096 := by
  dsimp only [V, hostOps0]; after_results; rfl

/-! ## The windows' blocks as entries of the arguments -/

/-- The printed index maps over the eight points: the three row-blocked windows sit at block row `t`, the others at block 0. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N, _)

theorem lt8 (t : Fin cfg0.N) : t.val < 8 := lt_of_lt_of_eq t.isLt (N_0 : cfg0.N = 8)

/-- Row `p` of block `t` is row `256 t + p` of the array. -/
def rowOf (t : Fin cfg0.N) (p : Fin 256) : Fin 2048 := ⟨256 * t.val + p.val, by have := lt8 t; have := p.isLt; omega⟩

theorem xblk_apply (c : Dev nD) (t : Fin cfg0.N) (p : Fin 256) (n : Fin 4096) :
    (iblk m c 0 t : Vec Ideal S256x4096 .f32) (ix2 p n) = (m ((c : Thread nD τ).loc main_arg0) : S2048x4096.Idx → EReal) (ix2 (rowOf t p) n) := by
  obtain ⟨⟨e0, e1⟩, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 256 + 1 * p.val = 256 * t.val + p.val; rw [e0]; omega
  | ⟨1, _⟩ => show win0_0.index t 1 * 4096 + 1 * n.val = n.val; rw [e1]; omega

theorem cblk_apply (c : Dev nD) (t : Fin cfg0.N) (p : Fin 256) (k : Fin 1024) :
    (iblk m c 1 t : Vec Ideal S256x1024 .f32) (ix2 p k) = (m ((c : Thread nD τ).loc main_arg1) : S2048x1024.Idx → EReal) (ix2 (rowOf t p) k) := by
  obtain ⟨-, ⟨e0, e1⟩, -⟩ := idx_facts t
  unfold iblk
  rw [View.read_apply]
  show V m c main_arg1 _ = m (c.tc.loc main_arg1) _
  rw [V_main_arg1]
  congr 1
  funext a
  apply Fin.ext
  match a with
  | ⟨0, _⟩ => show win0_1.index t 0 * 256 + 1 * p.val = 256 * t.val + p.val; rw [e0]; omega
  | ⟨1, _⟩ => show win0_1.index t 1 * 1024 + 1 * k.val = k.val; rw [e1]; omega

theorem ublk_apply (c : Dev nD) (t : Fin cfg0.N) (n : Fin 4096) (r : Fin 512) :
    (iblk m c 2 t : Vec Ideal S4096x512 .bf16) (ix2 n r) = (m ((c : Thread nD τ).loc main_arg2) : S4096x512.Idx → EReal) (ix2 n r) := by
  obtain ⟨-, -, ⟨e0, e1⟩, -⟩ := idx_facts t
  unfold iblk
  rw [View.read_apply]
  show V m c main_v0 _ = m (c.tc.loc main_arg2) _
  rw [V_U, truncf_apply]
  congr 1
  funext a
  apply Fin.ext
  match a with
  | ⟨0, _⟩ => show win0_2.index t 0 * 4096 + 1 * n.val = n.val; rw [e0]; omega
  | ⟨1, _⟩ => show win0_2.index t 1 * 512 + 1 * r.val = r.val; rw [e1]; omega

theorem wblk_apply (c : Dev nD) (t : Fin cfg0.N) (k : Fin 1024) (r : Fin 512) :
    (iblk m c 3 t : Vec Ideal S1024x512 .bf16) (ix2 k r) = (m ((c : Thread nD τ).loc main_arg5) : S1024x512.Idx → EReal) (ix2 k r) := by
  obtain ⟨-, -, -, ⟨e0, e1⟩, -⟩ := idx_facts t
  unfold iblk
  rw [View.read_apply]
  show V m c main_v1 _ = m (c.tc.loc main_arg5) _
  rw [V_W, truncf_apply]
  congr 1
  funext a
  apply Fin.ext
  match a with
  | ⟨0, _⟩ => show win0_3.index t 0 * 1024 + 1 * k.val = k.val; rw [e0]; omega
  | ⟨1, _⟩ => show win0_3.index t 1 * 512 + 1 * r.val = r.val; rw [e1]; omega

theorem vblk_apply (c : Dev nD) (t : Fin cfg0.N) (u : Fin 4096) (r : Fin 512) :
    (iblk m c 4 t : Vec Ideal S4096x512 .bf16) (ix2 u r) = (m ((c : Thread nD τ).loc main_arg4) : S4096x512.Idx → EReal) (ix2 u r) := by
  obtain ⟨-, -, -, -, ⟨e0, e1⟩, -⟩ := idx_facts t
  unfold iblk
  rw [View.read_apply]
  show V m c main_v2 _ = m (c.tc.loc main_arg4) _
  rw [V_V, truncf_apply]
  congr 1
  funext a
  apply Fin.ext
  match a with
  | ⟨0, _⟩ => show win0_4.index t 0 * 4096 + 1 * u.val = u.val; rw [e0]; omega
  | ⟨1, _⟩ => show win0_4.index t 1 * 512 + 1 * r.val = r.val; rw [e1]; omega

theorem sblk_apply (c : Dev nD) (t : Fin cfg0.N) (r : Fin 512) :
    (iblk m c 5 t : Vec Ideal S1x512 .f32) (ix2 (0 : Fin 1) r) = (m ((c : Thread nD τ).loc main_arg3) : S512.Idx → EReal) (ix1 r) := by
  obtain ⟨-, -, -, -, -, ⟨e0, e1⟩, -⟩ := idx_facts t
  unfold iblk
  rw [View.read_apply]
  show V m c main_v3 _ = m (c.tc.loc main_arg3) _
  rw [V_S]
  refine Eq.trans ?_ (shapeCast_a_1a_apply (m (c.tc.loc main_arg3)) shapeCasts_S512_S1x512 (0 : Fin 1) r)
  congr 1
  funext a
  apply Fin.ext
  match a with
  | ⟨0, _⟩ => show win0_5.index t 0 * 1 + 1 * 0 = 0; rw [e0]
  | ⟨1, _⟩ => show win0_5.index t 1 * 512 + 1 * r.val = r.val; rw [e1]; omega

theorem bblk_apply (c : Dev nD) (t : Fin cfg0.N) (u : Fin 4096) :
    (iblk m c 6 t : Vec Ideal S1x4096 .f32) (ix2 (0 : Fin 1) u) = (m ((c : Thread nD τ).loc main_arg6) : S4096.Idx → EReal) (ix1 u) := by
  obtain ⟨-, -, -, -, -, -, ⟨e0, e1⟩, -⟩ := idx_facts t
  unfold iblk
  rw [View.read_apply]
  show V m c main_v4 _ = m (c.tc.loc main_arg6) _
  rw [V_bias]
  refine Eq.trans ?_ (shapeCast_a_1a_apply (m (c.tc.loc main_arg6)) shapeCasts_S4096_S1x4096 (0 : Fin 1) u)
  congr 1
  funext a
  apply Fin.ext
  match a with
  | ⟨0, _⟩ => show win0_6.index t 0 * 1 + 1 * 0 = 0; rw [e0]
  | ⟨1, _⟩ => show win0_6.index t 1 * 4096 + 1 * u.val = u.val; rw [e1]; omega

/-- Entry (p, u) of the output window's block at point `t` is entry (256 t + p, u) of the result array. -/
theorem oblk_emb (t : Fin cfg0.N) (p : Fin 256) (u : Fin 4096) :
    (((cfg0.win 7).blk t).view.emb (ix2 p u) : S2048x4096.Idx) = ix2 (rowOf t p) u := by
  obtain ⟨-, -, -, -, -, -, -, ⟨e0, e1⟩⟩ := idx_facts t
  funext a
  apply Fin.ext
  match a with
  | ⟨0, _⟩ => show win0_7.index t 0 * 256 + 1 * p.val = 256 * t.val + p.val; rw [e0]; omega
  | ⟨1, _⟩ => show win0_7.index t 1 * 4096 + 1 * u.val = u.val; rw [e1]; omega

/-! ## What each point writes back, the cover, the array -/

/-- Point `t` writes back block `t` of the layer of the arguments. -/
theorem flushed_eq (c : Dev nD) (t : Fin cfg0.N) :
    (dats m 0 c).flushed 7 t = ((cfg0.win 7).blk t).view.read (Elt Ideal) (result m c) := by
  rw [flushed7]
  unfold out0_7
  rw [View.canon_unit_zero hz]
  simp only [View.ld_unit_zero (S := S256x4096) hz, View.ld_unit_zero (S := S256x1024) hz, View.ld_unit_zero (S := S1x512) hz,
    View.ld_unit_zero (S := S1024x512) hz, View.ld_unit_zero (S := S4096x512) hz, View.ld_unit_zero (S := S1x4096) hz]
  funext j
  obtain ⟨p, u, rfl⟩ : ∃ (p : Fin 256) (u : Fin 4096), j = ix2 p u := ⟨j 0, j 1, eq_ix2 j⟩
  show k0_pay1 (iblk m c 0 t) (iblk m c 1 t) (iblk m c 5 t) (iblk m c 3 t) (iblk m c 2 t) (iblk m c 4 t) (iblk m c 6 t) (ix2 p u)
    = result m c (((cfg0.win 7).blk t).view.emb (ix2 p u))
  refine (pay_apply (iblk m c 0 t) (iblk m c 1 t) (iblk m c 5 t) (iblk m c 3 t) (iblk m c 2 t) (iblk m c 4 t) (iblk m c 6 t) p u).trans ?_
  rw [oblk_emb]
  simp only [xblk_apply, cblk_apply, ublk_apply, wblk_apply, vblk_apply, sblk_apply, bblk_apply]
  rfl

/-- An index of the result array is in point `t`'s block iff each coordinate is in the block's range on its axis. -/
theorem mem_oblk (t : Fin cfg0.N) (i : S2048x4096.Idx) :
    i ∈ ((cfg0.win 7).blk t).view.set ↔ ∀ a : Fin 2, win0_7.index t a * S256x4096.size a ≤ (i a).val ∧ (i a).val < win0_7.index t a * S256x4096.size a + S256x4096.size a := by
  show i ∈ ((View.whole main_v5).slice (win0_7.rect t)).set ↔ _
  rw [View.set_slice_whole, Rect.mem_set_unit]
  exact Iff.rfl

/-- Every row of the result lies in the block of the point `row / 256`. -/
theorem covered (i : S2048x4096.Idx) :
    ∃ t : Fin cfg0.N, (cfg0.win 7).flush t = true ∧ i ∈ ((cfg0.win 7).blk t).view.set := by
  have hi0 : (i 0).val < 2048 := (i 0).isLt
  have hi1 : (i 1).val < 4096 := (i 1).isLt
  have hN : cfg0.N = 8 := N_0
  let t : Fin cfg0.N := ⟨(i 0).val / 256, by rw [hN]; omega⟩
  obtain ⟨-, -, -, -, -, -, -, ⟨e0, e1⟩⟩ := idx_facts t
  have ht : t.val = (i 0).val / 256 := rfl
  refine ⟨t, flush0_7 t, ?_⟩
  rw [mem_oblk]
  intro a
  match a with
  | ⟨0, _⟩ => show win0_7.index t 0 * 256 ≤ (i 0).val ∧ (i 0).val < win0_7.index t 0 * 256 + 256; rw [e0, ht]; omega
  | ⟨1, _⟩ => show win0_7.index t 1 * 4096 ≤ (i 1).val ∧ (i 1).val < win0_7.index t 1 * 4096 + 4096; rw [e1]; omega

/-- The result array after the run is the layer of the arguments. -/
theorem final (c : Dev nD) : (dats m 0 c).arrAt 7 cfg0.N = result m c :=
  (dats m 0 c).arrAt_eq_of_cover 7 (result m c) (fun t _ => flushed_eq m c t) covered

/-- The run, read: the result array at the layer of the arguments, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final m c), (h c).2⟩) (run_blocks m ρ)

end Cert.KernelIdeal.Blocks

end
-- ==== Proof.RefValue.lean ====
/-
  The reference's result, on the extended reals, is `LowRankLayer.layer` of its seven arguments.
  Read one operation at a time: the two broadcasts of `S` and of `bias` read their vector at the column, the transpose of
  `V` reads it at the swapped pair, each `dot_general` is the sum over its contracted coordinate, and `relu` is the
  maximum with zero. The operand indices the reading composes are the plain pairs (row, k), (k, column).
-/
import proofs.«402533_j14534169330228_3_alg».proof.Proof.Gen.ReferenceIdeal.Read
import proofs.«402533_j14534169330228_3_alg».proof.Proof.Layer

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-- Row of the left operand of the last product, then of the two inner ones: (row of i, k), then (row of i, n). -/
theorem l4_of_l7 (i : S2048x4096.Idx) (k : Fin 512) (n : Fin 4096) :
    lidx_main_v4 (lidx_main_v7 i k) n = ix2 (i 0) n :=
  funext fun a => Fin.ext (by match a with | ⟨0, _⟩ => rfl | ⟨1, _⟩ => rfl)
theorem r4_of_l7 (i : S2048x4096.Idx) (k : Fin 512) (n : Fin 4096) :
    ridx_main_v4 (lidx_main_v7 i k) n = ix2 n k :=
  funext fun a => Fin.ext (by match a with | ⟨0, _⟩ => rfl | ⟨1, _⟩ => rfl)
theorem l1_of_l7 (i : S2048x4096.Idx) (k : Fin 512) (c : Fin 1024) :
    lidx_main_v1 (lidx_main_v7 i k) c = ix2 (i 0) c :=
  funext fun a => Fin.ext (by match a with | ⟨0, _⟩ => rfl | ⟨1, _⟩ => rfl)
theorem r1_of_l7 (i : S2048x4096.Idx) (k : Fin 512) (c : Fin 1024) :
    ridx_main_v1 (lidx_main_v7 i k) c = ix2 c k :=
  funext fun a => Fin.ext (by match a with | ⟨0, _⟩ => rfl | ⟨1, _⟩ => rfl)
/-- The static singular value read under the two broadcasts: entry k of `S`. -/
theorem s_of_l7 (i : S2048x4096.Idx) (k : Fin 512) :
    idx_main_v0 (idx_main_v2 (lidx_main_v7 i k)) = ix1 k :=
  funext fun a => Fin.ext (by match a with | ⟨0, _⟩ => rfl)
/-- The transposed right factor read at (k, column): `V` at (column, k). -/
theorem v_of_r7 (i : S2048x4096.Idx) (k : Fin 512) :
    idx_main_v6 (ridx_main_v7 i k) = ix2 (i 1) k :=
  funext fun a => Fin.ext (by match a with | ⟨0, _⟩ => rfl | ⟨1, _⟩ => rfl)
/-- The bias read under its two broadcasts: entry (column of i). -/
theorem b_of_i (i : S2048x4096.Idx) : idx_main_v8 (idx_main_v9 i) = ix1 (i 1) :=
  funext fun a => Fin.ext (by match a with | ⟨0, _⟩ => rfl)

/-- The reference's result term is the layer of its arguments, entry by entry. -/
theorem result_eq (x0 : (⟨S2048x4096, .f32⟩ : BufTy).Contents (Elt Ideal)) (x1 : (⟨S2048x1024, .f32⟩ : BufTy).Contents (Elt Ideal))
    (x2 : (⟨S4096x512, .f32⟩ : BufTy).Contents (Elt Ideal)) (x3 : (⟨S512, .f32⟩ : BufTy).Contents (Elt Ideal))
    (x4 : (⟨S4096x512, .f32⟩ : BufTy).Contents (Elt Ideal)) (x5 : (⟨S1024x512, .f32⟩ : BufTy).Contents (Elt Ideal))
    (x6 : (⟨S4096, .f32⟩ : BufTy).Contents (Elt Ideal)) :
    val_main_v11 (F := Ideal) x0 x1 x2 x3 x4 x5 x6 = LowRankLayer.layer (B := 2048) x0 x1 x2 x3 x4 x5 x6 := by
  funext i
  rw [val_main_v11_apply, val_main_v10_apply, val_main_v7_apply, val_main_v9_apply, val_main_v8_apply,
    val_main_call0_v0_apply, val_main_call0_cst_apply]
  simp only [val_main_v5_apply, val_main_v6_apply, val_main_v4_apply, val_main_v3_apply, val_main_v2_apply,
    val_main_v0_apply, val_main_v1_apply, l4_of_l7, r4_of_l7, l1_of_l7, r1_of_l7, s_of_l7, v_of_r7, b_of_i,
    LowRankLayer.layer, LowRankLayer.row, LowRankLayer.proj, LowRankLayer.gate]
  show max _ (Ideal.ofBits .f32 0x00000000#32) = max _ 0
  rw [Ideal.ofBits_zero_f32]
  rfl

end Cert.ReferenceIdeal.RefValue

end
-- ==== Proof.lean ====
/- The proof of `Cert.Claim` (proofs.«402533_j14534169330228_3_alg».proof.Defs): a context-conditioned low-rank dense layer,
   `relu(((x U) ∘ (S + ctx W)) Vᵀ + bias)`, computed by a kernel over eight blocks of 256 batch rows against the same
   expression over the whole batch.

   On the extended reals the conversions to bf16 are the identity and every matrix product is the plain sum over its
   contracted coordinate, so both programs evaluate, entry by entry and in the same order, the expression
   `LowRankLayer.row` (Proof/Layer.lean) of one row of the inputs and of the context. No law of arithmetic joins the
   two sides and the precondition is never opened.
   - Proof/Products.lean: the kernel's three matrix products at an entry (the last contracts the second axis of both operands).
   - Proof/Payload.lean: what the kernel body stores at an entry of its block is `row` of that block row.
   - Proof/KernelValue.lean: each window's block as entries of the arguments (the host's casts and reshapes before the
     launch read through), what a grid point writes back, the eight blocks tiling the result, the run.
   - Proof/RefValue.lean: the reference's operations composed are `layer` of its arguments.
   The three frames are the two kernels' runs with the result forgotten and the reference's run with the result dropped;
   the idealization rewrote nothing, so `preserves` is `True`. -/
import proofs.«402533_j14534169330228_3_alg».proof.Defs
import proofs.«402533_j14534169330228_3_alg».proof.Proof.Gen.Kernel
import proofs.«402533_j14534169330228_3_alg».proof.Proof.Gen.Kernel.Frame
import proofs.«402533_j14534169330228_3_alg».proof.Proof.Gen.KernelIdeal
import proofs.«402533_j14534169330228_3_alg».proof.Proof.Gen.KernelIdeal.Frame
import proofs.«402533_j14534169330228_3_alg».proof.Proof.Gen.ReferenceIdeal
import proofs.«402533_j14534169330228_3_alg».proof.Proof.Gen.ReferenceIdeal.Run
import proofs.«402533_j14534169330228_3_alg».proof.Proof.Gen.Pre_finite_inputs
import proofs.«402533_j14534169330228_3_alg».proof.Proof.KernelValue
import proofs.«402533_j14534169330228_3_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- From memories that agree on the seven arguments both programs end with the layer of those arguments in their result
    arrays: the kernel by its eight row blocks, the reference by its operations composed. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.result_eq]
  obtain ⟨h0, h1, h2, h3, h4, h5, h6⟩ := hagree c
  rw [h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
